-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x262144x23 : Shape := ⟨3, ![8, 262144, 23]⟩
abbrev S8x10 : Shape := ⟨2, ![8, 10]⟩
abbrev S_ : Shape := ⟨0, ![]⟩

class Facts : Prop where
  bcast_S_S8x262144x23 : S_.BroadcastsInDim S8x262144x23 (![] : Fin 0 → Fin S8x262144x23.rank)
  reducesTo_S8x262144x23_S_d0_1_2 : S8x262144x23.ReducesTo [0, 1, 2] S_
  h_S_ : 0 < S_.numel
  bcast_S_S8x10 : S_.BroadcastsInDim S8x10 (![] : Fin 0 → Fin S8x10.rank)
  reducesTo_S8x10_S_d0_1 : S8x10.ReducesTo [0, 1] S_

variable [Facts]

def fn {F : FTy → Type} [FloatOps F] (main_arg0 : FVec F S8x262144x23 .f32) (main_arg1 : FVec F S8x10 .f32) : IVec S_ 1 :=
  let main_v0 : FVec F S8x262144x23 .f32 := Host.absf main_arg0
  let main_cst : FVec F S_ .f32 := constant S_ .f32 0x7F800000#32
  let main_v1 : FVec F S8x262144x23 .f32 := broadcastInDim S8x262144x23 ![] bcast_S_S8x262144x23 main_cst
  let main_v2 : IVec S8x262144x23 1 := cmpf .olt main_v0 main_v1
  let main_c : IVec S_ 1 := constantI S_ 1 1#1
  let main_v3 : IVec S_ 1 := (fun x v => Host.reduce IntOp.andi x v reducesTo_S8x262144x23_S_d0_1_2 h_S_) main_v2 main_c
  let main_v4 : FVec F S8x10 .f32 := Host.absf main_arg1
  let main_cst_0 : FVec F S_ .f32 := constant S_ .f32 0x7F800000#32
  let main_v5 : FVec F S8x10 .f32 := broadcastInDim S8x10 ![] bcast_S_S8x10 main_cst_0
  let main_v6 : IVec S8x10 1 := cmpf .olt main_v4 main_v5
  let main_c_1 : IVec S_ 1 := constantI S_ 1 1#1
  let main_v7 : IVec S_ 1 := (fun x v => Host.reduce IntOp.andi x v reducesTo_S8x10_S_d0_1 h_S_) main_v6 main_c_1
  let main_v8 : IVec S_ 1 := andi main_v3 main_v7
  main_v8
-- ==== Kernel.lean ====
abbrev S8x262144x23 : Shape := ⟨3, ![8, 262144, 23]⟩
abbrev S8x10 : Shape := ⟨2, ![8, 10]⟩
abbrev S23x10 : Shape := ⟨2, ![23, 10]⟩
abbrev S8x8192x23 : Shape := ⟨3, ![8, 8192, 23]⟩
abbrev S8x8192 : Shape := ⟨2, ![8, 8192]⟩
abbrev S8x8192x1 : Shape := ⟨3, ![8, 8192, 1]⟩
abbrev S65536x23 : Shape := ⟨2, ![65536, 23]⟩
abbrev S65536x10 : Shape := ⟨2, ![65536, 10]⟩
abbrev S8x8192x10 : Shape := ⟨3, ![8, 8192, 10]⟩
abbrev S_ : Shape := ⟨0, ![]⟩
abbrev S8 : Shape := ⟨1, ![8]⟩

abbrev nBuf : Space → Nat
  | .hbm => 17
  | .vmem => 4
  | .smem => 0
  | _ => 0

abbrev bufTy : (tb : Table) → Fin (tcTables nBuf tb) → BufTy
  | .hbm, ⟨0, _⟩ => ⟨S8x262144x23, .f32⟩
  | .hbm, ⟨1, _⟩ => ⟨S8x10, .f32⟩
  | .hbm, ⟨2, _⟩ => ⟨S23x10, .f32⟩
  | .hbm, ⟨3, _⟩ => ⟨S8x10, .f32⟩
  | .hbm, ⟨4, _⟩ => ⟨S8x10, .f32⟩
  | .hbm, ⟨5, _⟩ => ⟨S8x10, .f32⟩
  | .hbm, ⟨6, _⟩ => ⟨S8x10, .f32⟩
  | .hbm, ⟨7, _⟩ => ⟨S8x10, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S23x10, .f32⟩
  | .local _ .vmem, ⟨1, _⟩ => ⟨S8x8192x23, .f32⟩
  | .local _ .vmem, ⟨2, _⟩ => ⟨S8x8192x23, .f32⟩
  | .local _ .vmem, ⟨3, _⟩ => ⟨S8x10, .f32⟩
  | _, _ => ⟨S8x262144x23, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S23x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x8192x23 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S8x10_S8x10_0_0 : ∀ a, (![0, 0] : Fin 2 → Nat) a + S8x10.size a ≤ S8x10.size a
  h_S8x10 : 0 < S8x10.numel
  inb_S8x8192x23_S8x8192x23_0_0_0 : ∀ a, (![0, 0, 0] : Fin 3 → Nat) a + S8x8192x23.size a ≤ S8x8192x23.size a
  h_S8x8192x23 : 0 < S8x8192x23.numel
  reduces_S8x8192x23_S8x8192 : S8x8192x23.Reduces [2] S8x8192
  shapeCasts_S8x8192_S8x8192x1 : S8x8192.ShapeCasts S8x8192x1
  shapeCasts_S8x8192x23_S65536x23 : S8x8192x23.ShapeCasts S65536x23
  bitsLt_bf16_f32 : FTy.bits .bf16 < FTy.bits .f32
  inb_S23x10_S23x10_0_0 : ∀ a, (![0, 0] : Fin 2 → Nat) a + S23x10.size a ≤ S23x10.size a
  h_S23x10 : 0 < S23x10.numel
  shapeCasts_S65536x10_S8x8192x10 : S65536x10.ShapeCasts S8x8192x10
  broadcasts_S8x8192x1_S8x8192x10 : S8x8192x1.Broadcasts S8x8192x10
  reduces_S8x8192x10_S8x10 : S8x8192x10.Reduces [1] S8x10
  shapeCasts_S8x10_S8x10 : S8x10.ShapeCasts S8x10
  reducesTo_S8x10_S8_d1 : S8x10.ReducesTo [1] S8
  h_S_ : 0 < S_.numel
  bcast_S_S8 : S_.BroadcastsInDim S8 (![] : Fin 0 → Fin S8.rank)
  reducesTo_S8_S_d0 : S8.ReducesTo [0] S_
  dot_S65536x23_S23x10_S65536x10_1_0_0_1_n_n_wf : DotDims.WF S65536x23 S23x10 S65536x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S23x10.size a ≤ S23x10.size a
  hwx0_0 : ∀ i : grid0.Coords, EltTy.bits .f32 = 32 ∨ (Rect.block (s := S23x10) S23x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8192x23.size a ≤ S8x262144x23.size a
  hwx0_1 : ∀ i : grid0.Coords, EltTy.bits .f32 = 32 ∨ (Rect.block (s := S8x262144x23) S8x8192x23.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x10.size a ≤ S8x10.size a
  hwx0_2 : ∀ i : grid0.Coords, EltTy.bits .f32 = 32 ∨ (Rect.block (s := S8x10) S8x10.size (cc0_transform_2 i) (hinb0_2 i)).WholeWords (EltTy.packing .f32)

variable [Facts₀]

def dot_S65536x23_S23x10_S65536x10_1_0_0_1_n_n : DotDims S65536x23 S23x10 S65536x10 where
  lhsContracting := [1]
  rhsContracting := [0]
  lhsNonContracting := [0]
  rhsNonContracting := [1]
  lhsBatch := []
  rhsBatch := []
  wf := dot_S65536x23_S23x10_S65536x10_1_0_0_1_n_n_wf

abbrev win0_0 : Pipeline.Window sig grid0 :=
  Pipeline.Window.ofSpec (Memref.whole main_cst) S23x10.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x8192x23.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x10.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x262144x23 : Shape := ⟨3, ![8, 262144, 23]⟩
abbrev S8x10 : Shape := ⟨2, ![8, 10]⟩
abbrev S23x10 : Shape := ⟨2, ![23, 10]⟩
abbrev S8x262144x10 : Shape := ⟨3, ![8, 262144, 10]⟩
abbrev S_ : Shape := ⟨0, ![]⟩
abbrev S8x262144 : Shape := ⟨2, ![8, 262144]⟩
abbrev S8x262144x1 : Shape := ⟨3, ![8, 262144, 1]⟩
abbrev S8 : Shape := ⟨1, ![8]⟩

abbrev nBuf : Space → Nat
  | .hbm => 27
  | .vmem => 0
  | .smem => 0
  | _ => 0

abbrev bufTy : (tb : Table) → Fin (tcTables nBuf tb) → BufTy
  | .hbm, ⟨0, _⟩ => ⟨S8x262144x23, .f32⟩
  | .hbm, ⟨1, _⟩ => ⟨S8x10, .f32⟩
  | .hbm, ⟨2, _⟩ => ⟨S23x10, .f32⟩
  | .hbm, ⟨3, _⟩ => ⟨S8x262144x10, .f32⟩
  | .hbm, ⟨4, _⟩ => ⟨S_, .f32⟩
  | .hbm, ⟨5, _⟩ => ⟨S8x262144, .f32⟩
  | .hbm, ⟨6, _⟩ => ⟨S8x262144x1, .f32⟩
  | .hbm, ⟨7, _⟩ => ⟨S8x262144x10, .f32⟩
  | .hbm, ⟨8, _⟩ => ⟨S8x262144x10, .f32⟩
  | .hbm, ⟨9, _⟩ => ⟨S_, .f32⟩
  | .hbm, ⟨10, _⟩ => ⟨S8x10, .f32⟩
  | .hbm, ⟨11, _⟩ => ⟨S_, .f32⟩
  | .hbm, ⟨12, _⟩ => ⟨S8x10, .f32⟩
  | .hbm, ⟨13, _⟩ => ⟨S8x10, .f32⟩
  | .hbm, ⟨14, _⟩ => ⟨S8x10, .f32⟩
  | .hbm, ⟨15, _⟩ => ⟨S8x10, .f32⟩
  | .hbm, ⟨16, _⟩ => ⟨S8x10, .f32⟩
  | .hbm, ⟨17, _⟩ => ⟨S8x10, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S8x262144x23, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  reducesTo_S8x262144x10_S8x262144_d2 : S8x262144x10.ReducesTo [2] S8x262144
  h_S_ : 0 < S_.numel
  bcast_S8x262144_S8x262144x1_0_1 : S8x262144.BroadcastsInDim S8x262144x1 (![0, 1] : Fin 2 → Fin S8x262144x1.rank)
  bcast_S8x262144x1_S8x262144x10_0_1_2 : S8x262144x1.BroadcastsInDim S8x262144x10 (![0, 1, 2] : Fin 3 → Fin S8x262144x10.rank)
  reducesTo_S8x262144x10_S8x10_d1 : S8x262144x10.ReducesTo [1] S8x10
  bcast_S_S8x10 : S_.BroadcastsInDim S8x10 (![] : Fin 0 → Fin S8x10.rank)
  reducesTo_S8x10_S8_d1 : S8x10.ReducesTo [1] S8
  bcast_S_S8 : S_.BroadcastsInDim S8 (![] : Fin 0 → Fin S8.rank)
  reducesTo_S8_S_d0 : S8.ReducesTo [0] S_
  dot_S8x262144x23_S23x10_S8x262144x10_2_0_01_1_n_n_wf : DotDims.WF S8x262144x23 S23x10 S8x262144x10 [2] [0] [0, 1] [1] [] []

variable [Facts₀]

def dot_S8x262144x23_S23x10_S8x262144x10_2_0_01_1_n_n : DotDims S8x262144x23 S23x10 S8x262144x10 where
  lhsContracting := [2]
  rhsContracting := [0]
  lhsNonContracting := [0, 1]
  rhsNonContracting := [1]
  lhsBatch := []
  rhsBatch := []
  wf := dot_S8x262144x23_S23x10_S8x262144x10_2_0_01_1_n_n_wf

class Facts : Prop extends Facts₀ where

variable [Facts]
-- ==== Proof.KernelPieces.lean ====
/-
  What each of the kernel body's three cases leaves in the [8, 10] accumulator block, as a pure function of what it
  loads. With acc the accumulator's contents on entry, X the point's [8, 8192, 23] tile and M the table:
  • at the first point the block is zeroed and then updated, so it ends at update(X, M, zero);
  • at a middle point it ends at update(X, M, acc);
  • at the last point the update is followed by the division by the number of rows: scale(update(X, M, acc)).
  Here update is the body's second stored value (the tile's shares summed over its rows, added to the accumulator), zero
  its first and scale its third. Every load reads a whole buffer at zero offsets, and a load that follows a store of
  the whole block reads what was stored.
-/
import proofs.«150272_j21131239096802_1_alg».proof.Proof.Gen.KernelIdeal.Frame
import Idealize.ShloMosaic.Lib.Pipeline.Value
import Idealize.ShloMosaic.Lib.Tactic

noncomputable section

namespace Cert.KernelIdeal.KValue

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: one store of the whole block, the update of what the block held. -/
theorem out_B (c : Dev nD) (i : grid0.Coords) (a1 : Memref sig .tc .vmem S23x10 .f32) (h1 : a1.IsWhole)
    (a2 : Memref sig .tc .vmem S8x8192x23 .f32) (h2 : a2.IsWhole) (a3 : Memref sig .tc .vmem S8x10 .f32) (h3 : a3.IsWhole)
    (hc0 : ¬cond0_0 i) (hc1 : ¬cond0_1 i) (x0 : Vec F S23x10 .f32) (x1 : Vec F S8x8192x23 .f32) (xo2 : Vec F S8x10 .f32) :
    out0_B_2 c i a1 h1 a2 h2 a3 h3 hc0 hc1 x0 x1 xo2 = k0_pay2 x1 x0 xo2 := by
  unfold out0_B_2
  rw [View.read_writes_eq_canon _ _ _ (cover0_B_2 c i a1 h1 a2 h2 a3 h3 hc0 hc1 x0 x1 xo2)]
  unfold kernelRun0_B
  dsimp only
  sl_unfold_words
  rw [View.canon_unit_zero hz2]
  simp only [View.readAt_eq_ld, h1.read_unread, h2.read_unread, h3.read_unread, View.ld_unit_zero (S := S8x8192x23) hz3,
    View.ld_unit_zero (S := S23x10) hz2, View.ld_unit_zero (S := S8x10) hz2]

/-- The first point: the block is zeroed, read back, and updated. -/
theorem out_A (c : Dev nD) (i : grid0.Coords) (a1 : Memref sig .tc .vmem S23x10 .f32) (h1 : a1.IsWhole)
    (a2 : Memref sig .tc .vmem S8x8192x23 .f32) (h2 : a2.IsWhole) (a3 : Memref sig .tc .vmem S8x10 .f32) (h3 : a3.IsWhole)
    (hc0 : cond0_0 i) (hc1 : ¬cond0_1 i) (x0 : Vec F S23x10 .f32) (x1 : Vec F S8x8192x23 .f32) :
    out0_A_2 c i a1 h1 a2 h2 a3 h3 hc0 hc1 x0 x1 = k0_pay2 x1 x0 (k0_pay1 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S8x10) hz2, View.readCov_unit_zero (S := S8x10) _ hz2]
  simp only [View.readAt_eq_ld, h1.read_unread, h2.read_unread, View.ld_unit_zero (S := S8x8192x23) hz3,
    View.ld_unit_zero (S := S23x10) hz2]

/-- The last point: the block is updated, read back, and divided by the number of rows. -/
theorem out_C (c : Dev nD) (i : grid0.Coords) (a1 : Memref sig .tc .vmem S23x10 .f32) (h1 : a1.IsWhole)
    (a2 : Memref sig .tc .vmem S8x8192x23 .f32) (h2 : a2.IsWhole) (a3 : Memref sig .tc .vmem S8x10 .f32) (h3 : a3.IsWhole)
    (hc0 : ¬cond0_0 i) (hc1 : cond0_1 i) (x0 : Vec F S23x10 .f32) (x1 : Vec F S8x8192x23 .f32) (xo2 : Vec F S8x10 .f32) :
    out0_C_2 c i a1 h1 a2 h2 a3 h3 hc0 hc1 x0 x1 xo2 = k0_pay3 (k0_pay2 x1 x0 xo2) := by
  unfold out0_C_2
  rw [View.read_writes_eq_canon _ _ _ (cover0_C_2 c i a1 h1 a2 h2 a3 h3 hc0 hc1 x0 x1 xo2)]
  unfold kernelRun0_C
  dsimp only
  sl_unfold_words
  rw [View.canon_cons_unit_zero (S := S8x10) hz2, View.readCov_unit_zero (S := S8x10) _ hz2]
  simp only [View.readAt_eq_ld, h1.read_unread, h2.read_unread, h3.read_unread, View.ld_unit_zero (S := S8x8192x23) hz3,
    View.ld_unit_zero (S := S23x10) hz2, View.ld_unit_zero (S := S8x10) hz2]

end Cert.KernelIdeal.KValue

end
-- ==== Proof.KernelPayload.lean ====
/-
  The kernel body's stored values read at an index, over the extended reals.

  With X the point's [8, 8192, 23] tile, M the [23, 10] table and acc the [8, 10] accumulator, the update stored at
  (b, g) is
      acc b g + ∑ n, (∑ c, X b n c · M c g) / (∑ c, X b n c):
  the matrix product of the tile, flattened to 65536 rows, with the table, into a zero accumulator, is at row
  8192·b + n and column g the sum over the 23 columns of the products (a change of float format is the identity); the row
  sum of the 23 columns, kept as a trailing unit axis and broadcast along the ten groups, is the divisor; and the sum over
  the tile's 8192 rows is a plain finite sum. The reset stores zero and the last store divides by the number of rows.
-/
import proofs.«150272_j21131239096802_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen
open Idealize.ShloMosaic Idealize.ShloMosaic.ValueIdx

variable {α : Type}

/-- Row n of batch b in the tile flattened to 65536 rows. -/
abbrev flatRow (b : Fin 8) (n : Fin 8192) : Fin 65536 := ⟨8192 * b.val + n.val, by have := b.isLt; have := n.isLt; omega⟩

/-! ## The layout steps at coordinates -/

/-- The tile flattened to [65536, 23] reads, at (8192·b + n, c), the tile at (b, n, c). -/
theorem flat_apply (v : S8x8192x23.Idx → α) (h : S8x8192x23.ShapeCasts S65536x23) (b : Fin 8) (n : Fin 8192) (c : Fin 23) :
    shapeCast S65536x23 v h (ix2 (flatRow b n) c) = v (ix3 b n c) :=
  shapeCast_apply v h _ _ (by
    rw [Shape.rowMajor_val_two, Shape.rowMajor_val_three]
    show (b.val * 8192 + n.val) * 23 + c.val = (8192 * b.val + n.val) * 23 + c.val
    omega)

/-- A [65536, 10] array viewed as [8, 8192, 10] reads, at (b, n, g), the array at (8192·b + n, g). -/
theorem unflat_apply (w : S65536x10.Idx → α) (h : S65536x10.ShapeCasts S8x8192x10) (b : Fin 8) (n : Fin 8192) (g : Fin 10) :
    shapeCast S8x8192x10 w h (ix3 b n g) = w (ix2 (flatRow b n) g) :=
  shapeCast_apply w h _ _ (by
    rw [Shape.rowMajor_val_two, Shape.rowMajor_val_three]
    show (8192 * b.val + n.val) * 10 + g.val = (b.val * 8192 + n.val) * 10 + g.val
    omega)

/-- An [8, 8192] array given a trailing unit axis reads, at (b, n, u), the array at (b, n). -/
theorem keep_apply (v : S8x8192.Idx → α) (h : S8x8192.ShapeCasts S8x8192x1) (b : Fin 8) (n : Fin 8192) (u : Fin 1) :
    shapeCast S8x8192x1 v h (ix3 b n u) = v (ix2 b n) :=
  shapeCast_apply v h _ _ (by
    rw [Shape.rowMajor_val_two, Shape.rowMajor_val_three]
    show b.val * 8192 + n.val = (b.val * 8192 + n.val) * 1 + u.val
    omega)

/-- An [8, 8192, 1] column broadcast along ten groups reads, at (b, n, g), the column at (b, n, 0). -/
theorem bcast_apply (v : S8x8192x1.Idx → α) (h : S8x8192x1.Broadcasts S8x8192x10) (b : Fin 8) (n : Fin 8192) (g : Fin 10) :
    broadcastTo S8x8192x10 v h (ix3 b n g) = v (ix3 b n (0 : Fin 1)) := by
  refine broadcastTo_apply v h (ix3 b n g) (ix3 b n (0 : Fin 1)) fun ax => ?_
  match ax with
  | ⟨0, _⟩ => show b.val = if (8 : ℕ) = 1 then 0 else b.val; rw [if_neg (by decide)]
  | ⟨1, _⟩ => show n.val = if (8192 : ℕ) = 1 then 0 else n.val; rw [if_neg (by decide)]
  | ⟨2, _⟩ => show (0 : ℕ) = if (1 : ℕ) = 1 then 0 else g.val; rw [if_pos rfl]

/-! ## The two lane sums -/

/-- The sum of a tile along its 23 columns, at (b, n). -/
theorem rowsum_apply (v : FVec Ideal S8x8192x23 .f32) (h : S8x8192x23.Reduces [2] S8x8192) (hφ : FKind.Formats FTy.f32)
    (hacc : (0x00000000#32 : BitVec 32) = 0x00000000#32) (b : Fin 8) (n : Fin 8192) :
    multiReduction (F := Ideal) .add [2] S8x8192 v 0x00000000#32 h hφ hacc (ix2 b n) = ∑ c : Fin 23, v (ix3 b n c) :=
  (Ideal.multiReduction_add_single v 0x00000000#32 h hφ hacc (ix2 b n)).trans
    (Finset.sum_congr rfl fun k _ => congrArg v (funext fun ax => Fin.ext (by
      match ax with
      | ⟨0, _⟩ => rfl
      | ⟨1, _⟩ => rfl
      | ⟨2, _⟩ => rfl)))

/-- The sum of an [8, 8192, 10] array along its 8192 rows, at (b, g). -/
theorem colsum_apply (w : FVec Ideal S8x8192x10 .f32) (h : S8x8192x10.Reduces [1] S8x10) (hφ : FKind.Formats FTy.f32)
    (hacc : (0x00000000#32 : BitVec 32) = 0x00000000#32) (b : Fin 8) (g : Fin 10) :
    multiReduction (F := Ideal) .add [1] S8x10 w 0x00000000#32 h hφ hacc (ix2 b g) = ∑ n : Fin 8192, w (ix3 b n g) :=
  (Ideal.multiReduction_add_single w 0x00000000#32 h hφ hacc (ix2 b g)).trans
    (Finset.sum_congr rfl fun k _ => congrArg w (funext fun ax => Fin.ext (by
      match ax with
      | ⟨0, _⟩ => rfl
      | ⟨1, _⟩ => rfl
      | ⟨2, _⟩ => rfl)))

/-! ## The matrix product -/

theorem lhs_axis0 (j : S65536x10.Idx) (k : dot_S65536x23_S23x10_S65536x10_1_0_0_1_n_n.contr.Idx) :
    (dot_S65536x23_S23x10_S65536x10_1_0_0_1_n_n.lhsIdx j k 0).val = (j 0).val := by
  unfold DotDims.lhsIdx
  rw [dif_neg (show ¬(0 : Fin S65536x23.rank) ∈ dot_S65536x23_S23x10_S65536x10_1_0_0_1_n_n.lhsBatch by decide),
    dif_pos (show (0 : Fin S65536x23.rank) ∈ dot_S65536x23_S23x10_S65536x10_1_0_0_1_n_n.lhsNonContracting by decide)]
  rfl

theorem lhs_axis1 (j : S65536x10.Idx) (k : dot_S65536x23_S23x10_S65536x10_1_0_0_1_n_n.contr.Idx) :
    (dot_S65536x23_S23x10_S65536x10_1_0_0_1_n_n.lhsIdx j k 1).val = (k ⟨0, by decide⟩).val :=
  DotDims.lhsIdx_val_of_single _ (cl := 1) rfl j k

theorem rhs_axis0 (j : S65536x10.Idx) (k : dot_S65536x23_S23x10_S65536x10_1_0_0_1_n_n.contr.Idx) :
    (dot_S65536x23_S23x10_S65536x10_1_0_0_1_n_n.rhsIdx j k 0).val = (k ⟨0, by decide⟩).val :=
  DotDims.rhsIdx_val_of_single _ (cr := 0) rfl j k

theorem rhs_axis1 (j : S65536x10.Idx) (k : dot_S65536x23_S23x10_S65536x10_1_0_0_1_n_n.contr.Idx) :
    (dot_S65536x23_S23x10_S65536x10_1_0_0_1_n_n.rhsIdx j k 1).val = (j 1).val := by
  unfold DotDims.rhsIdx
  rw [dif_neg (show ¬(1 : Fin S23x10.rank) ∈ dot_S65536x23_S23x10_S65536x10_1_0_0_1_n_n.rhsBatch by decide),
    dif_pos (show (1 : Fin S23x10.rank) ∈ dot_S65536x23_S23x10_S65536x10_1_0_0_1_n_n.rhsNonContracting by decide)]
  rfl

/-- The product of a [65536, 23] array with a [23, 10] table into a zero accumulator, at (p, g): the sum over the 23
    columns of the products. -/
theorem matmul_at (l : FVec Ideal S65536x23 .bf16) (r : FVec Ideal S23x10 .bf16) (p : Fin 65536) (g : Fin 10) :
    matmul (F := Ideal) dot_S65536x23_S23x10_S65536x10_1_0_0_1_n_n none l r (constant (F := Ideal) S65536x10 .f32 0x00000000#32) (ix2 p g)
      = ∑ c : Fin 23, l (ix2 p c) * r (ix2 c g) := by
  refine (Ideal.matmul_constant_zero_apply dot_S65536x23_S23x10_S65536x10_1_0_0_1_n_n none l r (ix2 p g)).trans ?_
  rw [← Equiv.sum_comp (contrEquiv1 dot_S65536x23_S23x10_S65536x10_1_0_0_1_n_n 23 rfl rfl).symm]
  refine Finset.sum_congr rfl fun c _ => ?_
  have hk := contrEquiv1_symm_val dot_S65536x23_S23x10_S65536x10_1_0_0_1_n_n 23 rfl rfl c
  congr 2
  · funext a
    apply Fin.ext
    match a with
    | ⟨0, _⟩ => exact lhs_axis0 _ _
    | ⟨1, _⟩ => exact (lhs_axis1 _ _).trans hk
  · funext a
    apply Fin.ext
    match a with
    | ⟨0, _⟩ => exact (rhs_axis0 _ _).trans hk
    | ⟨1, _⟩ => exact rhs_axis1 _ _

/-! ## The three stored values -/

/-- The reset stores zero. -/
theorem pay1_apply (j : S8x10.Idx) : k0_pay1 (F := Ideal) j = 0 := by
  unfold k0_pay1
  exact Ideal.ofBits_zero_f32

/-- The update at (b, g): the accumulator plus the tile's shares of group g summed over the tile's rows. -/
theorem pay2_apply (v3 : Vec Ideal S8x8192x23 .f32) (v8 : Vec Ideal S23x10 .f32) (v15 : Vec Ideal S8x10 .f32) (b : Fin 8) (g : Fin 10) :
    k0_pay2 (F := Ideal) v3 v8 v15 (ix2 b g)
      = v15 (ix2 b g) + ∑ n : Fin 8192, Ideal.div (∑ c : Fin 23, v3 (ix3 b n c) * v8 (ix2 c g)) (∑ c : Fin 23, v3 (ix3 b n c)) := by
  unfold k0_pay2
  dsimp only
  rw [addf_apply, shapeCast_self, colsum_apply]
  refine congrArg (v15 (ix2 b g) + ·) (Finset.sum_congr rfl fun n _ => ?_)
  rw [divf_apply, unflat_apply, matmul_at, bcast_apply, keep_apply, rowsum_apply]
  refine congrArg (Ideal.div · _) (Finset.sum_congr rfl fun c _ => ?_)
  rw [truncf_apply, truncf_apply, flat_apply]

/-- The last store divides by the number of rows. -/
theorem pay3_apply (v22 : Vec Ideal S8x10 .f32) (j : S8x10.Idx) :
    k0_pay3 (F := Ideal) v22 j = Ideal.div (v22 j) (Ideal.ofBits .f32 0x48800000#32) := by
  unfold k0_pay3
  rw [divf_apply, shapeCast_self]
  rfl

end Cert.KernelIdeal.KValue

end
-- ==== Proof.Spec.lean ====
/-
  The mathematics of the grouped mean, over the extended reals.

  x is an [8, 262144, 23] array, M a [23, 10] table of zeros and ones in which every row c has its single one in
  column grp c. For a batch b, a row n and a group g the grouped share is
      cell b n g = (∑ c, x b n c · M c g) / (∑ c, x b n c),
  and the result averages it over the rows: avg b g = (∑ n, cell b n g) / 262144.

  Three facts join the two programs:
  • onehot_sum: summing the ten group sums of a row gives the row sum of the 23 columns, because each column lies in
    exactly one group (x · 1 = x, x · 0 = 0, and a double sum may be taken in either order: none of this needs the
    entries to be finite);
  • regroup: a sum over the 262144 rows is the sum over 32 consecutive tiles of the sums over the tile's 8192 rows;
  • upTo: the running sum tile by tile, with its step.
  The scalar that both programs finally return is the same function tail of avg and of the targets.
-/
import Idealize.ShloMosaic.PureOps.Ideal.Laws
import Idealize.ShloMosaic.Lib.ValueIdx

noncomputable section

namespace Cert.GroupedMean

open Idealize.ShloMosaic Idealize.ShloMosaic.ValueIdx

abbrev SX : Shape := ⟨3, ![8, 262144, 23]⟩
abbrev SB : Shape := ⟨3, ![8, 8192, 23]⟩
abbrev SM : Shape := ⟨2, ![23, 10]⟩
abbrev SO : Shape := ⟨2, ![8, 10]⟩
abbrev S8 : Shape := ⟨1, ![8]⟩
abbrev S0 : Shape := ⟨0, ![]⟩

/-- The group each of the 23 columns belongs to. -/
def grp : Fin 23 → Fin 10 := ![0, 0, 1, 1, 2, 2, 2, 3, 3, 4, 4, 4, 5, 5, 6, 6, 6, 7, 7, 8, 8, 9, 9]

/-- A table is the membership table when its entry (c, g) is one exactly for g = grp c and zero elsewhere. -/
def IsMembership (M : SM.Idx → EReal) : Prop := ∀ (c : Fin 23) (g : Fin 10), M (ix2 c g) = if g = grp c then 1 else 0

/-- The membership table itself. -/
def memAt (c : Fin 23) (g : Fin 10) : EReal := if g = grp c then 1 else 0
def mem : SM.Idx → EReal := fun j => memAt (j 0) (j 1)

theorem mem_isMembership : IsMembership mem := fun _ _ => rfl

/-- A membership table is the membership table. -/
theorem eq_mem_of_isMembership (M : SM.Idx → EReal) (hM : IsMembership M) : M = mem :=
  funext fun j => by
    obtain ⟨c, g, rfl⟩ : ∃ (c : Fin 23) (g : Fin 10), j = ix2 c g := ⟨j 0, j 1, eq_ix2 j⟩
    exact (hM c g).trans (mem_isMembership c g).symm

/-- Each column lies in exactly one group: the ten group sums of a row add up to the row's sum. -/
theorem onehot_sum (M : SM.Idx → EReal) (hM : IsMembership M) (r : Fin 23 → EReal) :
    ∑ g : Fin 10, ∑ c : Fin 23, r c * M (ix2 c g) = ∑ c : Fin 23, r c := by
  rw [Finset.sum_comm]
  refine Finset.sum_congr rfl fun c _ => ?_
  simp only [hM c, mul_ite, mul_one, mul_zero, Finset.sum_ite_eq', Finset.mem_univ, if_true]

/-- The grouped share of group g in row n of batch b: the group's sum over the row's sum. -/
def cell (x : SX.Idx → EReal) (M : SM.Idx → EReal) (b : Fin 8) (n : Fin 262144) (g : Fin 10) : EReal :=
  Ideal.div (∑ c : Fin 23, x (ix3 b n c) * M (ix2 c g)) (∑ c : Fin 23, x (ix3 b n c))

/-- The shares summed over all rows. -/
def total (x : SX.Idx → EReal) (M : SM.Idx → EReal) (b : Fin 8) (g : Fin 10) : EReal := ∑ n : Fin 262144, cell x M b n g

/-- The grouped mean: the total over the number of rows (kept as the word both programs divide by). -/
def avg (x : SX.Idx → EReal) (M : SM.Idx → EReal) : SO.Idx → EReal :=
  fun j => Ideal.div (total x M (j 0) (j 1)) (Ideal.ofBits .f32 0x48800000#32)

/-- Row n of tile t. -/
abbrev rowOf (t : Fin 32) (n : Fin 8192) : Fin 262144 := ⟨8192 * t.val + n.val, by have := t.isLt; have := n.isLt; omega⟩

/-- What one tile contributes: the shares summed over the tile's rows. -/
def tile (x : SX.Idx → EReal) (M : SM.Idx → EReal) (t : Fin 32) (b : Fin 8) (g : Fin 10) : EReal :=
  ∑ n : Fin 8192, cell x M b (rowOf t n) g

/-- A sum over the rows is the sum over the tiles of the sums over each tile's rows. -/
theorem regroup (f : Fin 262144 → EReal) : ∑ t : Fin 32, ∑ n : Fin 8192, f (rowOf t n) = ∑ k : Fin 262144, f k := by
  rw [← Fintype.sum_prod_type (f := fun p : Fin 32 × Fin 8192 => f (rowOf p.1 p.2))]
  refine Fintype.sum_equiv (finProdFinEquiv : Fin 32 × Fin 8192 ≃ Fin (32 * 8192)) _ _ fun p => ?_
  refine congrArg f (Fin.ext ?_)
  show 8192 * p.1.val + p.2.val = p.2.val + 8192 * p.1.val
  omega

theorem total_eq_tiles (x : SX.Idx → EReal) (M : SM.Idx → EReal) (b : Fin 8) (g : Fin 10) :
    total x M b g = ∑ t : Fin 32, tile x M t b g :=
  (regroup fun n => cell x M b n g).symm

/-- The running sum of the tiles 0 … k. -/
def upTo (x : SX.Idx → EReal) (M : SM.Idx → EReal) (k : ℕ) (b : Fin 8) (g : Fin 10) : EReal :=
  ∑ t ∈ Finset.range (k + 1), if h : t < 32 then tile x M ⟨t, h⟩ b g else 0

theorem upTo_zero (x : SX.Idx → EReal) (M : SM.Idx → EReal) (b : Fin 8) (g : Fin 10) :
    upTo x M 0 b g = tile x M 0 b g := by
  unfold upTo
  rw [Finset.sum_range_one, dif_pos (by omega)]
  rfl

theorem upTo_succ (x : SX.Idx → EReal) (M : SM.Idx → EReal) (k : ℕ) (hk : k + 1 < 32) (b : Fin 8) (g : Fin 10) :
    upTo x M (k + 1) b g = upTo x M k b g + tile x M ⟨k + 1, hk⟩ b g := by
  unfold upTo
  rw [Finset.sum_range_succ, dif_pos hk]

theorem upTo_last (x : SX.Idx → EReal) (M : SM.Idx → EReal) (b : Fin 8) (g : Fin 10) :
    upTo x M 31 b g = total x M b g := by
  rw [total_eq_tiles]
  unfold upTo
  rw [← Fin.sum_univ_eq_sum_range (fun t => if h : t < 32 then tile x M ⟨t, h⟩ b g else 0) 32]
  exact Finset.sum_congr rfl fun t _ => dif_pos t.isLt

/-- The scalar both programs return: for each batch the sum over the groups of target · (log target − log avg),
    over ten, then the mean of the eight. Its shape facts are arguments, so that either program's own witnesses fit. -/
def tail (h1 : SO.ReducesTo [1] S8) (h0 : 0 < S0.numel) (hb : S0.BroadcastsInDim S8 (![] : Fin 0 → Fin S8.rank))
    (h2 : S8.ReducesTo [0] S0) (a tg : FVec Ideal SO .f32) : FVec Ideal S0 .f32 :=
  Host.divf (F := Ideal)
    (Host.reduceAdd (F := Ideal)
      (Host.divf (F := Ideal)
        (Host.reduceAdd (F := Ideal) (mulf tg (subf (Host.log (F := Ideal) tg) (Host.log (F := Ideal) a)))
          (constant (F := Ideal) S0 .f32 0x00000000#32) h1 h0)
        (broadcastInDim S8 ![] hb (constant (F := Ideal) S0 .f32 0x41200000#32)))
      (constant (F := Ideal) S0 .f32 0x00000000#32) h2 h0)
    (constant (F := Ideal) S0 .f32 0x41000000#32)

end Cert.GroupedMean

end
-- ==== Proof.KernelBlocks.lean ====
/-
  What the region finds in its two input windows, at the extended reals.

  • The table's window is the whole [23, 10] table at every point, and the table the host writes before the region is
    the membership table: its 230 words are the one word where the column belongs to the group and the zero word
    elsewhere, checked entry by entry.
  • The data window at point t is rows 8192·t … 8192·t + 8191 of the [8, 262144, 23] argument: its entry (b, n, c) is the
    argument's entry (b, 8192·t + n, c).
  So the shares a point sums over its tile are the grouped mean's tile sums of the argument.
-/
import proofs.«150272_j21131239096802_1_alg».proof.Proof.Gen.KernelIdeal.Frame
import proofs.«150272_j21131239096802_1_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.KValue

open Cert.KernelIdeal Cert.KernelIdeal.Gen
open Idealize.ShloMosaic Idealize.ShloMosaic.TcCoe Idealize.ShloMosaic.ValueIdx Idealize.SL.Sem
open Cert.GroupedMean (grp mem memAt IsMembership cell tile rowOf)

variable (m : (ℓ : Loc nD τ sig) → Buf (Elt Ideal) ℓ)

/-- A grid point as a tile number. -/
abbrev tix (t : Fin cfg0.N) : Fin 32 := ⟨t.val, lt_of_lt_of_eq t.isLt N_0⟩

/-- The two input blocks at a point, at their literal types. -/
abbrev mblk (c : Dev nD) (t : Fin cfg0.N) : Vec Ideal S23x10 .f32 := iblk m c 0 t
abbrev xblk (c : Dev nD) (t : Fin cfg0.N) : Vec Ideal S8x8192x23 .f32 := iblk m c 1 t

/-- The argument array and the table as the region finds them. -/
abbrev xarr (c : Dev nD) : FVec Ideal S8x262144x23 .f32 := V m c main_arg0
abbrev marr (c : Dev nD) : FVec Ideal S23x10 .f32 := V m c main_cst

/-! ## The table -/

/-- The table's words: the one word at (c, grp c), the zero word elsewhere. -/
theorem lit_word : ∀ (c : Fin 23) (g : Fin 10),
    lit0 (S23x10.rowMajor (ix2 c g)) = if g = grp c then 0x3F800000#32 else 0x00000000#32 := by
  decide +kernel

theorem ofBits_one_f32 : Ideal.ofBits .f32 0x3F800000#32 = 1 :=
  IdealRules.sign_bit.ideal_onePat .f32

/-- What the host writes before the region is the membership table. -/
theorem marr_eq (c : Dev nD) : marr m c = mem := by
  have e : (V m c main_cst : S23x10.Idx → EReal) = fun i => Ideal.ofBits .f32 (lit0 (S23x10.rowMajor i)) := by
    show StableHlo.after hostOps0 (fun b => m (c, b)) (Proc.devRef .tc main_cst) = _
    after_results
    rfl
  refine Cert.GroupedMean.eq_mem_of_isMembership _ fun k g => ?_
  show (V m c main_cst : S23x10.Idx → EReal) (ix2 k g) = _
  rw [e]
  show Ideal.ofBits .f32 (lit0 (S23x10.rowMajor (ix2 k g))) = _
  rw [lit_word k g]
  by_cases h : g = grp k
  · rw [if_pos h, if_pos h, ofBits_one_f32]
  · rw [if_neg h, if_neg h, Ideal.ofBits_zero_f32]

/-! ## The windows' blocks -/

/-- Where each window's block sits: the table's at the origin, the data's at tile t of the rows. -/
theorem index_facts : ∀ t : Fin cfg0.N,
    win0_0.index t 0 = 0 ∧ win0_0.index t 1 = 0 ∧ win0_1.index t 0 = 0 ∧ win0_1.index t 1 = t.val ∧ win0_1.index t 2 = 0 :=
  (by decide +kernel : ∀ t : Fin grid0.N,
    win0_0.index t 0 = 0 ∧ win0_0.index t 1 = 0 ∧ win0_1.index t 0 = 0 ∧ win0_1.index t 1 = t.val ∧ win0_1.index t 2 = 0)

/-- The table's block is the table. -/
theorem mblk_apply (c : Dev nD) (t : Fin cfg0.N) (k : Fin 23) (g : Fin 10) :
    mblk m c t (ix2 k g) = marr m c (ix2 k g) := by
  show V m c main_cst (((cfg0.win 0).blk t).view.emb (ix2 k g)) = V m c main_cst (ix2 k g)
  refine congrArg (V m c main_cst) (funext fun a => Fin.ext ?_)
  obtain ⟨h0, h1, -, -, -⟩ := index_facts t
  match a with
  | ⟨0, _⟩ => show win0_0.index t 0 * 23 + 1 * k.val = k.val; rw [h0]; omega
  | ⟨1, _⟩ => show win0_0.index t 1 * 10 + 1 * g.val = g.val; rw [h1]; omega

/-- The data block at point t is tile t of the argument's rows. -/
theorem xblk_apply (c : Dev nD) (t : Fin cfg0.N) (b : Fin 8) (n : Fin 8192) (k : Fin 23) :
    xblk m c t (ix3 b n k) = xarr m c (ix3 b (rowOf (tix t) n) k) := by
  show V m c main_arg0 (((cfg0.win 1).blk t).view.emb (ix3 b n k)) = V m c main_arg0 (ix3 b (rowOf (tix t) n) k)
  refine congrArg (V m c main_arg0) (funext fun a => Fin.ext ?_)
  obtain ⟨-, -, h0, h1, h2⟩ := index_facts t
  match a with
  | ⟨0, _⟩ => show win0_1.index t 0 * 8 + 1 * b.val = b.val; rw [h0]; omega
  | ⟨1, _⟩ => show win0_1.index t 1 * 8192 + 1 * n.val = 8192 * t.val + n.val; rw [h1]; omega
  | ⟨2, _⟩ => show win0_1.index t 2 * 23 + 1 * k.val = k.val; rw [h2]; omega

/-- The shares a point sums over its tile are the grouped mean's tile sum of the argument. -/
theorem tile_eq (c : Dev nD) (t : Fin cfg0.N) (b : Fin 8) (g : Fin 10) :
    ∑ n : Fin 8192, Ideal.div (∑ k : Fin 23, xblk m c t (ix3 b n k) * mblk m c t (ix2 k g)) (∑ k : Fin 23, xblk m c t (ix3 b n k))
      = tile (xarr m c) mem (tix t) b g := by
  unfold Cert.GroupedMean.tile Cert.GroupedMean.cell
  refine Finset.sum_congr rfl fun n _ => ?_
  refine congrArg₂ Ideal.div (Finset.sum_congr rfl fun k _ => ?_) (Finset.sum_congr rfl fun k _ => ?_)
  · rw [xblk_apply, mblk_apply, marr_eq]
  · rw [xblk_apply]

end Cert.KernelIdeal.KValue

end
-- ==== Proof.KernelValue.lean ====
/-
  The kernel's result array and the scalar it returns, at the extended reals.

  The [8, 10] accumulator is carried from point to point. After point n < 31 it holds the running sum of the tile sums
  0 … n (the first point starts it from zero); the last point adds its tile and divides by the number of rows, which
  leaves the grouped mean; and the only write-back, after the last point, puts the whole block into the result array.
  The host operations after the region are the common scalar tail of that array and the targets.
-/
import proofs.«150272_j21131239096802_1_alg».proof.Proof.KernelPieces
import proofs.«150272_j21131239096802_1_alg».proof.Proof.KernelPayload
import proofs.«150272_j21131239096802_1_alg».proof.Proof.KernelBlocks

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)
open Cert.GroupedMean (mem tile upTo upTo_zero upTo_succ upTo_last avg total)

variable (m : (ℓ : Loc nD τ sig) → Buf (Elt Ideal) ℓ) (ρ : Dev nD → PrngReg)

/-- Before the last point the accumulator holds the running sum of the tiles so far. -/
theorem outsAt_running (c : Dev nD) : ∀ (n : ℕ) (h : n < cfg0.N), n < 31 → ∀ (b : Fin 8) (g : Fin 10),
    (outsAt0 m c n h : Vec Ideal S8x10 .f32) (ix2 b g) = upTo (xarr m c) mem n b g
  | 0, h, _, b, g => by
    rw [outsAt0_A m c ⟨0, h⟩ rfl (by dsimp only; omega), out_A, pay2_apply, pay1_apply, zero_add, upTo_zero]
    exact tile_eq m c ⟨0, h⟩ b g
  | n + 1, h, hlt, b, g => by
    have hB0 : ¬(⟨n + 1, h⟩ : Fin cfg0.N).val % 32 = 0 := by dsimp only; omega
    have hB1 : ¬(⟨n + 1, h⟩ : Fin cfg0.N).val % 32 = 31 := by dsimp only; omega
    rw [outsAt0_B m c ⟨n + 1, h⟩ hB0 hB1, out_B, pay2_apply, upTo_succ _ _ n (by omega)]
    exact congrArg₂ (· + ·) (outsAt_running c n _ (by omega) b g) (tile_eq m c ⟨n + 1, h⟩ b g)

/-- The last grid point. -/
abbrev tLast : Fin cfg0.N := ⟨31, by rw [show cfg0.N = 32 from N_0]; decide⟩

/-- After the last point the accumulator holds the grouped mean. -/
theorem outsAt_last (c : Dev nD) (b : Fin 8) (g : Fin 10) :
    (outsAt0 m c 31 (tLast).isLt : Vec Ideal S8x10 .f32) (ix2 b g) = avg (xarr m c) mem (ix2 b g) := by
  have hC0 : ¬(tLast).val % 32 = 0 := by decide
  have hC1 : (tLast).val % 32 = 31 := rfl
  rw [outsAt0_C m c tLast hC0 hC1, out_C, pay3_apply, pay2_apply]
  show Ideal.div _ _ = Ideal.div (total (xarr m c) mem b g) _
  refine congrArg (Ideal.div · _) ?_
  rw [← upTo_last, upTo_succ _ _ 30 (by decide)]
  exact congrArg₂ (· + ·) (outsAt_running m c 30 _ (by decide) b g) (tile_eq m c tLast b g)

/-- The result array: the grouped mean of the argument. -/
abbrev result (c : Dev nD) : Buf (Elt Ideal) ((c : Thread nD τ).loc main_v0) := avg (xarr m c) mem

theorem outsAt_last_eq (c : Dev nD) : outsAt0 m c 31 (tLast).isLt = result m c :=
  funext fun j => by
    obtain ⟨b, g, rfl⟩ : ∃ (b : Fin 8) (g : Fin 10), j = ix2 b g := ⟨j 0, j 1, eq_ix2 j⟩
    exact outsAt_last m c b g

/-- The result window's block sits at the origin at every point. -/
theorem index2_facts : ∀ t : Fin cfg0.N, win0_2.index t 0 = 0 ∧ win0_2.index t 1 = 0 :=
  (by decide +kernel : ∀ t : Fin grid0.N, win0_2.index t 0 = 0 ∧ win0_2.index t 1 = 0)

/-- The one write-back, after the last point, writes the grouped mean: the block is the whole array. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, outsAt_last_eq]
  have hz' : (fun a => win0_2.index tLast a * main_v0.ty.shape.size a) = fun _ => 0 := funext fun a => by
    obtain ⟨h0, h1⟩ := index2_facts tLast
    match a with
    | ⟨0, _⟩ => show win0_2.index tLast 0 * 8 = 0; rw [h0]
    | ⟨1, _⟩ => show win0_2.index tLast 1 * 10 = 0; rw [h1]
  exact (Memref.read_access_unit_zero (Elt Ideal) main_v0 hz' (fun a => by rw [congrFun hz' a]; simp) (result m c)).symm

/-- So the result array ends holding the grouped mean. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      obtain ⟨h0, h1⟩ := index2_facts tLast
      have hi0 : (i 0 : Nat) < 8 := (i 0).isLt
      have hi1 : (i 1 : Nat) < 10 := (i 1).isLt
      match a with
      | ⟨0, _⟩ =>
        show win0_2.index tLast 0 * 8 ≤ (i 0 : Nat) ∧ (i 0 : Nat) < win0_2.index tLast 0 * 8 + 8
        rw [h0]; omega
      | ⟨1, _⟩ =>
        show win0_2.index tLast 1 * 10 ≤ (i 1 : Nat) ∧ (i 1 : Nat) < win0_2.index tLast 1 * 10 + 10
        rw [h1]; omega⟩

/-- The scalar the host operations after the region compute: the common tail of the grouped mean and the targets. -/
theorem tail_eq (c : Dev nD) :
    Pipeline.afterTail₀ cfgs (dats m) 0 (V0 m) [hostOps1] c main_v9
      = Cert.GroupedMean.tail Gen.reducesTo_S8x10_S8_d1 Gen.h_S_ Gen.bcast_S_S8 Gen.reducesTo_S8_S_d0
          (avg (m ((c.tc : Thread nD τ).loc main_arg0)) mem) (m ((c.tc : Thread nD τ).loc main_arg1)) := by
  have e0 : Pipeline.withArrays (cfgs 0).spec c (V0 m c) (fun w => (dats m 0 c).arrAt w (cfgs 0).N) (Proc.devRef .tc main_v0)
      = avg (m ((c.tc : Thread nD τ).loc main_arg0)) mem :=
    ((Pipeline.withArrays_arr spec0 launch0.win.arr_inj c _ _ 2).trans (final m c)).trans (by
      show avg (V m c main_arg0) mem = _
      rw [V_main_arg0])
  have e1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  show StableHlo.after hostOps1 _ (Proc.devRef .tc main_v9) = _
  after_results
  rw [e0, e1]
  rfl

/-- The run, read: the returned scalar is the common tail of the argument's grouped mean and the targets, and both
    arguments end unchanged. -/
theorem run : θ_run defs (onTc (τ := τ) (main (F := Ideal))) ⟨m, fun _ => 0, ρ⟩ fun r => ∀ c : Dev nD,
      r.2.mem ((c.tc : Thread nD τ).loc main_v9)
          = Cert.GroupedMean.tail Gen.reducesTo_S8x10_S8_d1 Gen.h_S_ Gen.bcast_S_S8 Gen.reducesTo_S8_S_d0
              (avg (m ((c.tc : Thread nD τ).loc main_arg0)) mem) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v9 (Pipeline.mem_restRefs_of main_v9 (by decide) (by decide))).trans (tail_eq m c),
        ((h c).1 1).trans (((dats m 0 c).arrAt_in 1 rfl _).trans ((A_eq m c 1).trans (V_main_arg0 m c))),
        ((h c).2 main_arg1 (Pipeline.mem_restRefs_of main_arg1 (by decide) (by decide))).trans (W_main_arg1 m (dats m) c)⟩)
    (run_main m ρ)

end Cert.KernelIdeal.KValue

end
-- ==== Proof.RefRun.lean ====
/-
  The reference program's main function read as the list of its 25 host operations, and its run: every weakly
  fair execution ends with the result buffer holding the composition of the operations' functions applied to the
  two arguments' initial contents, and with both arguments unchanged.

  The composition is named in pieces, in the order the program computes them: the grouped sums (the input
  contracted with the literal table), the denominator (their sum over the ten groups, spread back over the
  groups), the shares (grouped sums over denominator), the mean of the shares over the rows, and the scalar
  the program ends with.
-/
import proofs.«150272_j21131239096802_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the main function, in order. -/
abbrev ops : List (HloOp τ sig (Elt F)) :=
  [ nullary main_cst (fun i => FloatOps.ofBits .f32 (lit0 (S23x10.rowMajor i))),
    binary main_arg0 main_cst main_v0 ((fun l r => Host.dotGeneral dot_S8x262144x23_S23x10_S8x262144x10_2_0_01_1_n_n none l r) : (⟨S8x262144x23, .f32⟩ : BufTy).Contents (Elt F) → (⟨S23x10, .f32⟩ : BufTy).Contents (Elt F) → (⟨S8x262144x10, .f32⟩ : BufTy).Contents (Elt F)),
    nullary main_cst_0 (constant S_ .f32 0x00000000#32),
    binary main_v0 main_cst_0 main_v1 ((fun x v => Host.reduceAdd x v reducesTo_S8x262144x10_S8x262144_d2 h_S_) : (⟨S8x262144x10, .f32⟩ : BufTy).Contents (Elt F) → (⟨S_, .f32⟩ : BufTy).Contents (Elt F) → (⟨S8x262144, .f32⟩ : BufTy).Contents (Elt F)),
    unary main_v1 main_v2 (broadcastInDim S8x262144x1 ![0, 1] bcast_S8x262144_S8x262144x1_0_1 : (⟨S8x262144, .f32⟩ : BufTy).Contents (Elt F) → (⟨S8x262144x1, .f32⟩ : BufTy).Contents (Elt F)),
    unary main_v2 main_v3 (broadcastInDim S8x262144x10 ![0, 1, 2] bcast_S8x262144x1_S8x262144x10_0_1_2 : (⟨S8x262144x1, .f32⟩ : BufTy).Contents (Elt F) → (⟨S8x262144x10, .f32⟩ : BufTy).Contents (Elt F)),
    binary main_v0 main_v3 main_v4 (Host.divf : (⟨S8x262144x10, .f32⟩ : BufTy).Contents (Elt F) → (⟨S8x262144x10, .f32⟩ : BufTy).Contents (Elt F) → (⟨S8x262144x10, .f32⟩ : BufTy).Contents (Elt F)),
    nullary main_cst_1 (constant S_ .f32 0x00000000#32),
    binary main_v4 main_cst_1 main_v5 ((fun x v => Host.reduceAdd x v reducesTo_S8x262144x10_S8x10_d1 h_S_) : (⟨S8x262144x10, .f32⟩ : BufTy).Contents (Elt F) → (⟨S_, .f32⟩ : BufTy).Contents (Elt F) → (⟨S8x10, .f32⟩ : BufTy).Contents (Elt F)),
    nullary main_cst_2 (constant S_ .f32 0x48800000#32),
    unary main_cst_2 main_v6 (broadcastInDim S8x10 ![] bcast_S_S8x10 : (⟨S_, .f32⟩ : BufTy).Contents (Elt F) → (⟨S8x10, .f32⟩ : BufTy).Contents (Elt F)),
    binary main_v5 main_v6 main_v7 (Host.divf : (⟨S8x10, .f32⟩ : BufTy).Contents (Elt F) → (⟨S8x10, .f32⟩ : BufTy).Contents (Elt F) → (⟨S8x10, .f32⟩ : BufTy).Contents (Elt F)),
    unary main_v7 main_v8 (Host.log : (⟨S8x10, .f32⟩ : BufTy).Contents (Elt F) → (⟨S8x10, .f32⟩ : BufTy).Contents (Elt F)),
    unary main_arg1 main_v9 (Host.log : (⟨S8x10, .f32⟩ : BufTy).Contents (Elt F) → (⟨S8x10, .f32⟩ : BufTy).Contents (Elt F)),
    binary main_v9 main_v8 main_v10 (subf : (⟨S8x10, .f32⟩ : BufTy).Contents (Elt F) → (⟨S8x10, .f32⟩ : BufTy).Contents (Elt F) → (⟨S8x10, .f32⟩ : BufTy).Contents (Elt F)),
    binary main_arg1 main_v10 main_v11 (mulf : (⟨S8x10, .f32⟩ : BufTy).Contents (Elt F) → (⟨S8x10, .f32⟩ : BufTy).Contents (Elt F) → (⟨S8x10, .f32⟩ : BufTy).Contents (Elt F)),
    nullary main_cst_3 (constant S_ .f32 0x00000000#32),
    binary main_v11 main_cst_3 main_v12 ((fun x v => Host.reduceAdd x v reducesTo_S8x10_S8_d1 h_S_) : (⟨S8x10, .f32⟩ : BufTy).Contents (Elt F) → (⟨S_, .f32⟩ : BufTy).Contents (Elt F) → (⟨S8, .f32⟩ : BufTy).Contents (Elt F)),
    nullary main_cst_4 (constant S_ .f32 0x41200000#32),
    unary main_cst_4 main_v13 (broadcastInDim S8 ![] bcast_S_S8 : (⟨S_, .f32⟩ : BufTy).Contents (Elt F) → (⟨S8, .f32⟩ : BufTy).Contents (Elt F)),
    binary main_v12 main_v13 main_v14 (Host.divf : (⟨S8, .f32⟩ : BufTy).Contents (Elt F) → (⟨S8, .f32⟩ : BufTy).Contents (Elt F) → (⟨S8, .f32⟩ : BufTy).Contents (Elt F)),
    nullary main_cst_5 (constant S_ .f32 0x00000000#32),
    binary main_v14 main_cst_5 main_v15 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_6 (constant S_ .f32 0x41000000#32),
    binary main_v15 main_cst_6 main_v16 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., binary_bufs_sub .., unary_bufs_sub .., unary_bufs_sub ..,
   binary_bufs_sub .., nullary_bufs_sub .., binary_bufs_sub .., nullary_bufs_sub .., unary_bufs_sub .., binary_bufs_sub ..,
   unary_bufs_sub .., unary_bufs_sub .., binary_bufs_sub .., binary_bufs_sub .., nullary_bufs_sub .., binary_bufs_sub ..,
   nullary_bufs_sub .., unary_bufs_sub .., binary_bufs_sub .., nullary_bufs_sub .., binary_bufs_sub .., nullary_bufs_sub ..,
   binary_bufs_sub ..⟩

/-! ## The composed term, in pieces -/

/-- The literal table: entry i is the float whose word is the table's word at the row-major position of i. -/
def table : (⟨S23x10, .f32⟩ : BufTy).Contents (Elt F) := fun i => FloatOps.ofBits .f32 (lit0 (S23x10.rowMajor i))

/-- The grouped sums: the input contracted with the table over the 23 columns. -/
def dot (x : (⟨S8x262144x23, .f32⟩ : BufTy).Contents (Elt F)) : (⟨S8x262144x10, .f32⟩ : BufTy).Contents (Elt F) :=
  Host.dotGeneral dot_S8x262144x23_S23x10_S8x262144x10_2_0_01_1_n_n none x table

/-- The denominator: the grouped sums added over the ten groups (from zero), spread back over the groups. -/
def denom (x : (⟨S8x262144x23, .f32⟩ : BufTy).Contents (Elt F)) : (⟨S8x262144x10, .f32⟩ : BufTy).Contents (Elt F) :=
  broadcastInDim S8x262144x10 ![0, 1, 2] bcast_S8x262144x1_S8x262144x10_0_1_2
    (broadcastInDim S8x262144x1 ![0, 1] bcast_S8x262144_S8x262144x1_0_1
      (Host.reduceAdd (dot x) (constant S_ .f32 0x00000000#32) reducesTo_S8x262144x10_S8x262144_d2 h_S_))

/-- The shares: each grouped sum over its row's denominator. -/
def probs (x : (⟨S8x262144x23, .f32⟩ : BufTy).Contents (Elt F)) : (⟨S8x262144x10, .f32⟩ : BufTy).Contents (Elt F) :=
  Host.divf (dot x) (denom x)

/-- The mean of the shares over the 262144 rows: their sum (from zero) over the constant 262144. -/
def mean (x : (⟨S8x262144x23, .f32⟩ : BufTy).Contents (Elt F)) : (⟨S8x10, .f32⟩ : BufTy).Contents (Elt F) :=
  Host.divf (Host.reduceAdd (probs x) (constant S_ .f32 0x00000000#32) reducesTo_S8x262144x10_S8x10_d1 h_S_)
    (broadcastInDim S8x10 ![] bcast_S_S8x10 (constant S_ .f32 0x48800000#32))

/-- The scalar the program returns: for each batch the sum over the groups of target times (log target minus
    log mean), over ten; then the sum of the eight over eight. -/
def result (x : (⟨S8x262144x23, .f32⟩ : BufTy).Contents (Elt F)) (tg : (⟨S8x10, .f32⟩ : BufTy).Contents (Elt F)) : (⟨S_, .f32⟩ : BufTy).Contents (Elt F) :=
  Host.divf
    (Host.reduceAdd
      (Host.divf
        (Host.reduceAdd (mulf tg (subf (Host.log tg) (Host.log (mean x))))
          (constant S_ .f32 0x00000000#32) reducesTo_S8x10_S8_d1 h_S_)
        (broadcastInDim S8 ![] bcast_S_S8 (constant S_ .f32 0x41200000#32)))
      (constant S_ .f32 0x00000000#32) reducesTo_S8_S_d0 h_S_)
    (constant S_ .f32 0x41000000#32)

/-- On every device, for any float values, from any memory with zero counters: every weakly fair execution of
    the main function terminates with the result at the composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v16).trans (by unfold result mean probs denom dot table; after_results; rfl),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.RefValue.lean ====
/-
  The value the reference program computes, at the ideal instance, where a float is an extended real and every
  operation is its textbook one.

  The literal table is the membership table: each of its 230 words is the word of one at the column's own group
  and the zero word elsewhere. The contraction of the input with it, read at (b, n, g), is the sum over the 23
  columns of input times table entry. The denominator sums those ten group sums of a row and spreads the result
  back over the groups; since every column lies in exactly one group, that sum is the row's own sum over the 23
  columns. So the share at (b, n, g) is the group's sum over the row's sum, its total over the rows divided by
  262144 is the grouped mean, and the remaining operations are, one for one, the scalar tail of the grouped mean
  and the targets.
-/
import proofs.«150272_j21131239096802_1_alg».proof.Proof.RefRun
import proofs.«150272_j21131239096802_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## The table -/

/-- Each of the 230 words of the table: the word of one at the column's own group, the zero word elsewhere. -/
theorem table_word : ∀ (c : Fin 23) (g : Fin 10),
    lit0 (S23x10.rowMajor (ix2 c g)) = if g = Cert.GroupedMean.grp c then 0x3F800000#32 else 0x00000000#32 := by
  decide +kernel

theorem one_word : Ideal.ofBits .f32 0x3F800000#32 = 1 :=
  IdealRules.sign_bit.ideal_onePat .f32

theorem table_eq : (RefRun.table (F := Ideal) : Cert.GroupedMean.SM.Idx → EReal) = Cert.GroupedMean.mem := by
  refine Cert.GroupedMean.eq_mem_of_isMembership _ fun c g => ?_
  show Ideal.ofBits .f32 (lit0 (S23x10.rowMajor (ix2 c g))) = _
  rw [table_word c g]
  by_cases h : g = Cert.GroupedMean.grp c
  · rw [if_pos h, if_pos h, one_word]
  · rw [if_neg h, if_neg h, Ideal.ofBits_zero_f32]

/-! ## The contraction at an index

The operand indices of the contraction at an output index and a contraction position, one coordinate at a time:
the input is read at the output's first two coordinates and the position, the table at the position and the
output's last coordinate. -/

theorem lhs_0 (i : S8x262144x10.Idx) (q : dot_S8x262144x23_S23x10_S8x262144x10_2_0_01_1_n_n.contr.Idx) :
    (dot_S8x262144x23_S23x10_S8x262144x10_2_0_01_1_n_n.lhsIdx i q 0).val = (i 0).val := by
  unfold DotDims.lhsIdx
  rw [dif_neg (show ¬(0 : Fin S8x262144x23.rank) ∈ dot_S8x262144x23_S23x10_S8x262144x10_2_0_01_1_n_n.lhsBatch by decide), dif_pos (show (0 : Fin S8x262144x23.rank) ∈ dot_S8x262144x23_S23x10_S8x262144x10_2_0_01_1_n_n.lhsNonContracting by decide)]
  rfl
theorem lhs_1 (i : S8x262144x10.Idx) (q : dot_S8x262144x23_S23x10_S8x262144x10_2_0_01_1_n_n.contr.Idx) :
    (dot_S8x262144x23_S23x10_S8x262144x10_2_0_01_1_n_n.lhsIdx i q 1).val = (i 1).val := by
  unfold DotDims.lhsIdx
  rw [dif_neg (show ¬(1 : Fin S8x262144x23.rank) ∈ dot_S8x262144x23_S23x10_S8x262144x10_2_0_01_1_n_n.lhsBatch by decide), dif_pos (show (1 : Fin S8x262144x23.rank) ∈ dot_S8x262144x23_S23x10_S8x262144x10_2_0_01_1_n_n.lhsNonContracting by decide)]
  rfl
theorem lhs_2 (i : S8x262144x10.Idx) (q : dot_S8x262144x23_S23x10_S8x262144x10_2_0_01_1_n_n.contr.Idx) :
    (dot_S8x262144x23_S23x10_S8x262144x10_2_0_01_1_n_n.lhsIdx i q 2).val = (q ⟨0, by decide⟩).val :=
  dot_S8x262144x23_S23x10_S8x262144x10_2_0_01_1_n_n.lhsIdx_val_of_single rfl i q
theorem rhs_0 (i : S8x262144x10.Idx) (q : dot_S8x262144x23_S23x10_S8x262144x10_2_0_01_1_n_n.contr.Idx) :
    (dot_S8x262144x23_S23x10_S8x262144x10_2_0_01_1_n_n.rhsIdx i q 0).val = (q ⟨0, by decide⟩).val :=
  dot_S8x262144x23_S23x10_S8x262144x10_2_0_01_1_n_n.rhsIdx_val_of_single rfl i q
theorem rhs_1 (i : S8x262144x10.Idx) (q : dot_S8x262144x23_S23x10_S8x262144x10_2_0_01_1_n_n.contr.Idx) :
    (dot_S8x262144x23_S23x10_S8x262144x10_2_0_01_1_n_n.rhsIdx i q 1).val = (i 2).val := by
  unfold DotDims.rhsIdx
  rw [dif_neg (show ¬(1 : Fin S23x10.rank) ∈ dot_S8x262144x23_S23x10_S8x262144x10_2_0_01_1_n_n.rhsBatch by decide), dif_pos (show (1 : Fin S23x10.rank) ∈ dot_S8x262144x23_S23x10_S8x262144x10_2_0_01_1_n_n.rhsNonContracting by decide)]
  rfl

/-- The contraction at an index: the sum over the 23 columns of input times table. -/
theorem dot_apply (x : FVec Ideal S8x262144x23 .f32) (M : FVec Ideal S23x10 .f32) (b : Fin 8) (n : Fin 262144) (g : Fin 10) :
    Host.dotGeneral (F := Ideal) dot_S8x262144x23_S23x10_S8x262144x10_2_0_01_1_n_n none x M (ix3 b n g) = ∑ c : Fin 23, x (ix3 b n c) * M (ix2 c g) := by
  simp only [Host.dotGeneral]
  rw [Ideal.dotGeneral_apply, ← Equiv.sum_comp (ValueIdx.contrEquiv1 dot_S8x262144x23_S23x10_S8x262144x10_2_0_01_1_n_n 23 rfl rfl).symm]
  refine Finset.sum_congr rfl fun k _ => ?_
  have hk := ValueIdx.contrEquiv1_symm_val dot_S8x262144x23_S23x10_S8x262144x10_2_0_01_1_n_n 23 rfl rfl k
  have el : dot_S8x262144x23_S23x10_S8x262144x10_2_0_01_1_n_n.lhsIdx (ix3 b n g) ((ValueIdx.contrEquiv1 dot_S8x262144x23_S23x10_S8x262144x10_2_0_01_1_n_n 23 rfl rfl).symm k) = ix3 b n k := funext fun a => Fin.ext (by
    match a with
    | ⟨0, _⟩ => exact lhs_0 _ _
    | ⟨1, _⟩ => exact lhs_1 _ _
    | ⟨2, _⟩ => exact (lhs_2 _ _).trans hk)
  have er : dot_S8x262144x23_S23x10_S8x262144x10_2_0_01_1_n_n.rhsIdx (ix3 b n g) ((ValueIdx.contrEquiv1 dot_S8x262144x23_S23x10_S8x262144x10_2_0_01_1_n_n 23 rfl rfl).symm k) = ix2 k g := funext fun a => Fin.ext (by
    match a with
    | ⟨0, _⟩ => exact (rhs_0 _ _).trans hk
    | ⟨1, _⟩ => exact rhs_1 _ _)
  rw [el, er]

/-! ## Sums over one axis and spreads, at an index -/

/-- The sum over the ten groups at row (b, n): zero plus the ten entries. -/
theorem rowsum_apply (y : FVec Ideal S8x262144x10 .f32) (b : Fin 8) (n : Fin 262144) :
    Host.reduceAdd (F := Ideal) y (constant (F := Ideal) S_ .f32 0x00000000#32) reducesTo_S8x262144x10_S8x262144_d2 h_S_ (ix2 b n)
      = ∑ g : Fin 10, y (ix3 b n g) := by
  unfold Host.reduceAdd
  show Ideal.hostReduceAdd reducesTo_S8x262144x10_S8x262144_d2 y (Ideal.ofBits .f32 0x00000000#32) (ix2 b n) = _
  rw [Ideal.hostReduceAdd_single _ (by decide : S8x262144x10.Reduces [2] S8x262144), Ideal.ofBits_zero_f32, zero_add]
  refine Finset.sum_congr rfl fun g _ => congrArg y (funext fun a => Fin.ext ?_)
  match a with
  | ⟨0, _⟩ => rfl
  | ⟨1, _⟩ => rfl
  | ⟨2, _⟩ => rfl

/-- The sum over the rows at (b, g): zero plus the 262144 entries. -/
theorem colsum_apply (y : FVec Ideal S8x262144x10 .f32) (b : Fin 8) (g : Fin 10) :
    Host.reduceAdd (F := Ideal) y (constant (F := Ideal) S_ .f32 0x00000000#32) reducesTo_S8x262144x10_S8x10_d1 h_S_ (ix2 b g)
      = ∑ n : Fin 262144, y (ix3 b n g) := by
  unfold Host.reduceAdd
  show Ideal.hostReduceAdd reducesTo_S8x262144x10_S8x10_d1 y (Ideal.ofBits .f32 0x00000000#32) (ix2 b g) = _
  rw [Ideal.hostReduceAdd_single _ (by decide : S8x262144x10.Reduces [1] S8x10), Ideal.ofBits_zero_f32, zero_add]
  refine Finset.sum_congr rfl fun n _ => congrArg y (funext fun a => Fin.ext ?_)
  match a with
  | ⟨0, _⟩ => rfl
  | ⟨1, _⟩ => rfl
  | ⟨2, _⟩ => rfl

/-- A row's value spread over the ten groups: first to a unit last axis, then along it. -/
theorem spread_apply (z : FVec Ideal S8x262144 .f32) (b : Fin 8) (n : Fin 262144) (g : Fin 10) :
    broadcastInDim S8x262144x10 ![0, 1, 2] bcast_S8x262144x1_S8x262144x10_0_1_2
      (broadcastInDim S8x262144x1 ![0, 1] bcast_S8x262144_S8x262144x1_0_1 z) (ix3 b n g) = z (ix2 b n) := by
  rw [broadcastInDim_apply _ _ _ _ (ix3 b n (0 : Fin 1)) (fun a => by
    match a with
    | ⟨0, _⟩ => rfl
    | ⟨1, _⟩ => rfl
    | ⟨2, _⟩ => rfl)]
  rw [broadcastInDim_apply _ _ _ _ (ix2 b n) (fun a => by
    match a with
    | ⟨0, _⟩ => rfl
    | ⟨1, _⟩ => rfl)]

/-- A scalar constant spread over a shape reads the constant everywhere. -/
theorem splat_S8x10 (w : BitVec 32) (j : S8x10.Idx) :
    broadcastInDim S8x10 ![] bcast_S_S8x10 (constant (F := Ideal) S_ .f32 w) j = Ideal.ofBits .f32 w := rfl

/-! ## The shares, their total, the mean, and the scalar -/

/-- The host's quotient at an index divides the entries. -/
theorem hostDivf_apply {s : Shape} (u v : FVec Ideal s .f32) (i : s.Idx) :
    Host.divf (F := Ideal) u v i = Ideal.div (u i) (v i) := rfl

/-- The grouped sums at an index, with the table read as the membership table. -/
theorem dot_mem (x : FVec Ideal S8x262144x23 .f32) (b : Fin 8) (n : Fin 262144) (g : Fin 10) :
    RefRun.dot (F := Ideal) x (ix3 b n g) = ∑ c : Fin 23, x (ix3 b n c) * Cert.GroupedMean.mem (ix2 c g) := by
  unfold RefRun.dot
  rw [dot_apply, table_eq]

/-- The denominator at an index: the ten group sums of the row add up to the row's sum over the 23 columns,
    because every column lies in exactly one group. -/
theorem denom_apply (x : FVec Ideal S8x262144x23 .f32) (b : Fin 8) (n : Fin 262144) (g : Fin 10) :
    RefRun.denom (F := Ideal) x (ix3 b n g) = ∑ c : Fin 23, x (ix3 b n c) := by
  unfold RefRun.denom
  rw [spread_apply, rowsum_apply]
  simp only [dot_mem]
  exact Cert.GroupedMean.onehot_sum _ Cert.GroupedMean.mem_isMembership (fun c => x (ix3 b n c))

/-- The shares at an index are the specification's grouped shares. -/
theorem probs_apply (x : FVec Ideal S8x262144x23 .f32) (b : Fin 8) (n : Fin 262144) (g : Fin 10) :
    RefRun.probs (F := Ideal) x (ix3 b n g) = Cert.GroupedMean.cell x Cert.GroupedMean.mem b n g := by
  unfold RefRun.probs
  rw [hostDivf_apply, dot_mem, denom_apply]
  rfl

/-- The shares summed over the rows (from zero) are the specification's total. -/
theorem total_apply (x : FVec Ideal S8x262144x23 .f32) (b : Fin 8) (g : Fin 10) :
    Host.reduceAdd (F := Ideal) (RefRun.probs (F := Ideal) x) (constant (F := Ideal) S_ .f32 0x00000000#32)
        reducesTo_S8x262144x10_S8x10_d1 h_S_ (ix2 b g)
      = Cert.GroupedMean.total x Cert.GroupedMean.mem b g := by
  rw [colsum_apply]
  exact Finset.sum_congr rfl fun n _ => probs_apply x b n g

/-- The mean of the shares is the specification's grouped mean. -/
theorem mean_eq (x : FVec Ideal S8x262144x23 .f32) :
    RefRun.mean (F := Ideal) x = Cert.GroupedMean.avg x Cert.GroupedMean.mem := by
  funext j
  obtain ⟨b, g, rfl⟩ : ∃ (b : Fin 8) (g : Fin 10), j = ix2 b g := ⟨j 0, j 1, eq_ix2 j⟩
  unfold RefRun.mean
  rw [hostDivf_apply, total_apply, splat_S8x10]
  rfl

/-- The scalar the program returns is the specification's scalar of the grouped mean and the targets: from
    the mean on, the two are the same operations in the same order. -/
theorem result_eq (x : FVec Ideal S8x262144x23 .f32) (tg : FVec Ideal S8x10 .f32) :
    RefRun.result (F := Ideal) x tg
      = Cert.GroupedMean.tail reducesTo_S8x10_S8_d1 h_S_ bcast_S_S8 reducesTo_S8_S_d0
          (Cert.GroupedMean.avg x Cert.GroupedMean.mem) tg := by
  rw [← mean_eq]
  rfl

/-- On every device, from any memory with zero counters: every weakly fair execution of the reference ends with
    its result at the specification's scalar of the grouped mean of the first argument and of the second
    argument, and with both arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = Cert.GroupedMean.tail Gen.reducesTo_S8x10_S8_d1 Gen.h_S_ Gen.bcast_S_S8 Gen.reducesTo_S8_S_d0
              (Cert.GroupedMean.avg (m ((c.tc : Thread nD τ).loc main_arg0)) Cert.GroupedMean.mem)
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq _ _), (h c).2.1, (h c).2.2⟩)
    (RefRun.run (F := Ideal) m ρ)

end Cert.ReferenceIdeal.RefValue
end
-- ==== Proof.lean ====
/-
  The kernel streams an [8, 262144, 23] array in 32 tiles of 8192 rows. For every row it forms the ten group sums of
  the 23 columns (a product with a 0/1 membership table) and divides them by the row's sum; it adds these shares up over
  the rows of the tile into an [8, 10] accumulator, which the first tile starts from zero and the last tile finally
  divides by the number of rows; a short scalar tail (a divergence against the targets, averaged) follows on the host.
  The reference forms the same group sums by one contraction, divides each row's by the sum of that row's ten group
  sums, and averages over all rows at once before the same tail.

  Over the extended reals the two agree. The only difference in the arithmetic is the divisor: the sum of a row's ten
  group sums is the row's sum of its 23 columns, because every column belongs to exactly one group (a product with one
  is the factor, with zero is zero, and a finite double sum may be taken in either order; the entries need not be finite
  for this). The only difference in the order of summation is that the rows are summed tile by tile: sums of extended
  reals may be regrouped freely. Both runs are therefore stated with the same result term, the common tail of the grouped
  mean of the argument and the targets.

  The three frames: the kernel's two are the generated frame certificates; the reference is a straight line of host
  operations, whose run also gives its frame. The idealization rewrote nothing, so there is nothing to preserve.
-/
import proofs.«150272_j21131239096802_1_alg».proof.Defs
import proofs.«150272_j21131239096802_1_alg».proof.Proof.Gen.Kernel
import proofs.«150272_j21131239096802_1_alg».proof.Proof.Gen.Kernel.Frame
import proofs.«150272_j21131239096802_1_alg».proof.Proof.Gen.KernelIdeal
import proofs.«150272_j21131239096802_1_alg».proof.Proof.Gen.KernelIdeal.Frame
import proofs.«150272_j21131239096802_1_alg».proof.Proof.Gen.ReferenceIdeal
import proofs.«150272_j21131239096802_1_alg».proof.Proof.Gen.Pre_finite_inputs
import proofs.«150272_j21131239096802_1_alg».proof.Proof.KernelValue
import proofs.«150272_j21131239096802_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs return the common tail of the argument's grouped mean and the targets. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
